-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S2048x2048 : Shape := ⟨2, ![2048, 2048]⟩
abbrev S2048 : Shape := ⟨1, ![2048]⟩
abbrev S2048x4096 : Shape := ⟨2, ![2048, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S2048 .f32) (main_arg5 : FVec F S2048x4096 .f32) (main_arg6 : FVec F S4096 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : FVec F S2048x2048 .f32) (main_arg2 : FVec F S2048 .f32) (main_arg3 : FVec F S2048x2048 .f32) (main_arg4 : FVec F S2048 .f32) (main_arg5 : FVec F S2048x4096 .f32) (main_arg6 : FVec F S4096 .f32) (main_arg7 : IVec S2048 32) (main_arg8 : IVec S2048 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S4096x4096 : Shape := ⟨2, ![4096, 4096]⟩
abbrev S2048x2048 : Shape := ⟨2, ![2048, 2048]⟩
abbrev S2048 : Shape := ⟨1, ![2048]⟩
abbrev S2048x4096 : Shape := ⟨2, ![2048, 4096]⟩
abbrev S4096 : Shape := ⟨1, ![4096]⟩
abbrev S_ : Shape := ⟨0, ![]⟩
abbrev S2048x1 : Shape := ⟨2, ![2048, 1]⟩
abbrev S4096x2048 : Shape := ⟨2, ![4096, 2048]⟩
abbrev S1x2048 : Shape := ⟨2, ![1, 2048]⟩
abbrev S1x4096 : Shape := ⟨2, ![1, 4096]⟩
abbrev S4096x1 : Shape := ⟨2, ![4096, 1]⟩
abbrev S64x2048 : Shape := ⟨2, ![64, 2048]⟩
abbrev S64x1 : Shape := ⟨2, ![64, 1]⟩
abbrev S64x4096 : Shape := ⟨2, ![64, 4096]⟩
abbrev S64 : Shape := ⟨1, ![64]⟩

abbrev nBuf : Space → Nat
  | .hbm => 46
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x4096, .f32⟩
  | .hbm, ⟨6, _⟩ => ⟨S4096, .f32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S2048x1, .i32⟩
  | .hbm, ⟨17, _⟩ => ⟨S4096x2048, .f32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S4096x2048, .f32⟩
  | .hbm, ⟨27, _⟩ => ⟨S4096x2048, .bf16⟩
  | .hbm, ⟨28, _⟩ => ⟨S2048x2048, .bf16⟩
  | .hbm, ⟨29, _⟩ => ⟨S2048x2048, .bf16⟩
  | .hbm, ⟨30, _⟩ => ⟨S2048x4096, .bf16⟩
  | .hbm, ⟨31, _⟩ => ⟨S1x2048, .f32⟩
  | .hbm, ⟨32, _⟩ => ⟨S1x2048, .f32⟩
  | .hbm, ⟨33, _⟩ => ⟨S1x4096, .f32⟩
  | .hbm, ⟨34, _⟩ => ⟨S4096x2048, .f32⟩
  | .hbm, ⟨35, _⟩ => ⟨S4096x1, .f32⟩
  | .hbm, ⟨36, _⟩ => ⟨S4096, .f32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S2048x1, .i32⟩
  | .hbm, ⟨45, _⟩ => ⟨S4096x4096, .f32⟩
  | .local _ .vmem, ⟨0, _⟩ => ⟨S64x2048, .bf16⟩
  | .local _ .vmem, ⟨1, _⟩ => ⟨S64x2048, .bf16⟩
  | .local _ .vmem, ⟨2, _⟩ => ⟨S64x2048, .f32⟩
  | .local _ .vmem, ⟨3, _⟩ => ⟨S64x2048, .f32⟩
  | .local _ .vmem, ⟨4, _⟩ => ⟨S2048x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S2048x4096, .bf16⟩
  | .local _ .vmem, ⟨9, _⟩ => ⟨S1x4096, .f32⟩
  | .local _ .vmem, ⟨10, _⟩ => ⟨S64x2048, .f32⟩
  | .local _ .vmem, ⟨11, _⟩ => ⟨S64x2048, .f32⟩
  | .local _ .vmem, ⟨12, _⟩ => ⟨S64x1, .f32⟩
  | .local _ .vmem, ⟨13, _⟩ => ⟨S64x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bitsLt_bf16_f32 : FTy.bits .bf16 < FTy.bits .f32
  shapeCasts_S2048_S1x2048 : S2048.ShapeCasts S1x2048
  shapeCasts_S4096_S1x4096 : S4096.ShapeCasts S1x4096
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  slices_S64x4096_o0_0_S64x2048 : S64x4096.Slices ![0, 0] S64x2048
  slices_S64x4096_o0_2048_S64x2048 : S64x4096.Slices ![0, 2048] S64x2048
  reduces_S64x2048_S64 : S64x2048.Reduces [1] S64
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S4096x1_S4096 : S4096x1.ShapeCasts S4096
  gather_S4096x4096_S2048x1_S4096x2048_0_1_n_n_1_1_40961_wf : GatherDims.WF S4096x4096 S2048x1 S4096x2048 [0] [1] [] [1] [] 1 ![4096, 1]
  dot_S64x2048_S2048x2048_S64x2048_1_0_0_1_n_n_wf : DotDims.WF S64x2048 S2048x2048 S64x2048 [1] [0] [0] [1] [] []
  dot_S64x2048_S2048x4096_S64x4096_1_0_0_1_n_n_wf : DotDims.WF S64x2048 S2048x4096 S64x4096 [1] [0] [0] [1] [] []
  scatter_S4096x4096_S2048x1_S4096x2048_0_1_1_1_wf : ScatterDims.WF S4096x4096 S2048x1 S4096x2048 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S4096x2048.size a
  hwx0_0 : ∀ i : grid0.Coords, EltTy.bits .bf16 = 32 ∨ (Rect.block (s := S4096x2048) S64x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S4096x2048.size a
  hwx0_1 : ∀ i : grid0.Coords, EltTy.bits .f32 = 32 ∨ (Rect.block (s := S4096x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x4096.size a ≤ S2048x4096.size a
  hwx0_6 : ∀ i : grid0.Coords, EltTy.bits .bf16 = 32 ∨ (Rect.block (s := S2048x4096) S2048x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x2048.size a ≤ S4096x2048.size a
  hwx0_8 : ∀ i : grid0.Coords, EltTy.bits .f32 = 32 ∨ (Rect.block (s := S4096x2048) S64x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S4096x1.size a
  hwx0_9 : ∀ i : grid0.Coords, EltTy.bits .f32 = 32 ∨ (Rect.block (s := S4096x1) S64x1.size (cc0_transform_9 i) (hinb0_9 i)).WholeWords (EltTy.packing .f32)

variable [Facts₀]

def gather_S4096x4096_S2048x1_S4096x2048_0_1_n_n_1_1_40961 : GatherDims S4096x4096 S2048x1 S4096x2048 where
  offsetDims := [0]
  collapsedSliceDims := [1]
  operandBatchingDims := []
  startIndicesBatchingDims := []
  startIndexMap := [1]
  indexVectorDim := 1
  sliceSizes := ![4096, 1]
  wf := gather_S4096x4096_S2048x1_S4096x2048_0_1_n_n_1_1_40961_wf
def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S64x2048_S2048x4096_S64x4096_1_0_0_1_n_n : DotDims S64x2048 S2048x4096 S64x4096 where
  lhsContracting := [1]
  rhsContracting := [0]
  lhsNonContracting := [0]
  rhsNonContracting := [1]
  lhsBatch := []
  rhsBatch := []
  wf := dot_S64x2048_S2048x4096_S64x4096_1_0_0_1_n_n_wf
def scatter_S4096x4096_S2048x1_S4096x2048_0_1_1_1 : ScatterDims S4096x4096 S2048x1 S4096x2048 where
  updateWindowDims := [0]
  insertedWindowDims := [1]
  scatterDimsToOperandDims := [1]
  indexVectorDim := 1
  wf := scatter_S4096x4096_S2048x1_S4096x2048_0_1_1_1_wf

abbrev win0_0 : Pipeline.Window sig grid0 :=
  Pipeline.Window.ofSpec (Memref.whole main_v14) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S2048x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21_0) S64x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v21_1) S64x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S2048x2048 : Shape := ⟨2, ![2048, 2048]⟩
abbrev S2048 : Shape := ⟨1, ![2048]⟩
abbrev S2048x4096 : Shape := ⟨2, ![2048, 4096]⟩
abbrev S4096 : Shape := ⟨1, ![4096]⟩
abbrev S_ : Shape := ⟨0, ![]⟩
abbrev S2048x1 : Shape := ⟨2, ![2048, 1]⟩
abbrev S4096x2048 : Shape := ⟨2, ![4096, 2048]⟩
abbrev S1x2048 : Shape := ⟨2, ![1, 2048]⟩
abbrev S1x4096 : Shape := ⟨2, ![1, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x4096, .f32⟩
  | .hbm, ⟨6, _⟩ => ⟨S4096, .f32⟩
  | .hbm, ⟨7, _⟩ => ⟨S2048, .i32⟩
  | .hbm, ⟨8, _⟩ => ⟨S2048, .i32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S2048x1, .i32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S_, .f32⟩
  | .hbm, ⟨24, _⟩ => ⟨S4096x2048, .f32⟩
  | .hbm, ⟨25, _⟩ => ⟨S4096x2048, .i1⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S_, .f32⟩
  | .hbm, ⟨36, _⟩ => ⟨S4096x2048, .f32⟩
  | .hbm, ⟨37, _⟩ => ⟨S4096x2048, .i1⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x4096, .f32⟩
  | .hbm, ⟨43, _⟩ => ⟨S1x4096, .f32⟩
  | .hbm, ⟨44, _⟩ => ⟨S4096x4096, .f32⟩
  | .hbm, ⟨45, _⟩ => ⟨S4096x4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S_, .i32⟩
  | .hbm, ⟨53, _⟩ => ⟨S2048, .i32⟩
  | .hbm, ⟨54, _⟩ => ⟨S2048, .i1⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048, .i32⟩
  | .hbm, ⟨59, _⟩ => ⟨S2048x1, .i32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S_, .i32⟩
  | .hbm, ⟨65, _⟩ => ⟨S2048, .i32⟩
  | .hbm, ⟨66, _⟩ => ⟨S2048, .i1⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S2048, .i32⟩
  | .hbm, ⟨71, _⟩ => ⟨S2048x1, .i32⟩
  | .hbm, ⟨72, _⟩ => ⟨S4096x4096, .f32⟩
  | .hbm, ⟨73, _⟩ => ⟨S_, .f32⟩
  | .hbm, ⟨74, _⟩ => ⟨S4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_c_3 : Ref sig .tc := ⟨.hbm, 52, rfl⟩
abbrev main_v26 : Ref sig .tc := ⟨.hbm, 53, rfl⟩
abbrev main_v27 : Ref sig .tc := ⟨.hbm, 54, rfl⟩
abbrev main_c_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_5 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x2048_0_0 : S4096x4096.Slices ![0, 0] S4096x2048
  slices_S4096x4096_S4096x2048_0_2048 : S4096x4096.Slices ![0, 2048] S4096x2048
  reducesTo_S4096x2048_S4096_d1 : S4096x2048.ReducesTo [1] S4096
  h_S_ : 0 < S_.numel
  gather_S4096x4096_S2048x1_S4096x2048_0_1_n_n_1_1_40961_wf : GatherDims.WF S4096x4096 S2048x1 S4096x2048 [0] [1] [] [1] [] 1 ![4096, 1]
  dot_S4096x2048_S2048x2048_S4096x2048_1_0_0_1_n_n_wf : DotDims.WF S4096x2048 S2048x2048 S4096x2048 [1] [0] [0] [1] [] []
  dot_S4096x2048_S2048x4096_S4096x4096_1_0_0_1_n_n_wf : DotDims.WF S4096x2048 S2048x4096 S4096x4096 [1] [0] [0] [1] [] []
  scatter_S4096x4096_S2048x1_S4096x2048_0_1_1_1_wf : ScatterDims.WF S4096x4096 S2048x1 S4096x2048 [0] [1] [1] 1

variable [Facts₀]

def gather_S4096x4096_S2048x1_S4096x2048_0_1_n_n_1_1_40961 : GatherDims S4096x4096 S2048x1 S4096x2048 where
  offsetDims := [0]
  collapsedSliceDims := [1]
  operandBatchingDims := []
  startIndicesBatchingDims := []
  startIndexMap := [1]
  indexVectorDim := 1
  sliceSizes := ![4096, 1]
  wf := gather_S4096x4096_S2048x1_S4096x2048_0_1_n_n_1_1_40961_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def scatter_S4096x4096_S2048x1_S4096x2048_0_1_1_1 : ScatterDims S4096x4096 S2048x1 S4096x2048 where
  updateWindowDims := [0]
  insertedWindowDims := [1]
  scatterDimsToOperandDims := [1]
  indexVectorDim := 1
  wf := scatter_S4096x4096_S2048x1_S4096x2048_0_1_1_1_wf

class Facts : Prop extends Facts₀ where

variable [Facts]
-- ==== Proof.Spec.lean ====
/-
  The mathematics of one affine coupling step, ROW BY ROW, on the extended reals.

  A row `x` of the frozen half (2048 entries) goes through three dense layers with a leaky rectifier between them,
      h₁ = leaky (x · W₁ + b₁),   h₂ = leaky (h₁ · W₂ + b₂),   o = h₂ · W₃ + b₃   (4096 entries),
  the first 2048 entries of `o` give the log-scale `s = 2 · tanh o`, the last 2048 the shift `t`, and the row `u` of the
  transformed half becomes `u · exp s + t`; the row's log-determinant is the sum of `s`.  Every sum here is a finite sum in
  the commutative monoid of the extended reals, so neither its order nor the way the rows are grouped into blocks
  matters: a program that treats 64 rows at a time and one that treats all 4096 at once compute, at row `r`, these same
  functions of row `r` of their operands.  No law that fails at the infinities (distributivity, cancellation) is used.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.PureOps.Ideal.Laws

noncomputable section

namespace Cert.Coupling

open Idealize.ShloMosaic Idealize.ShloMosaic.ValueIdx

/-- A matrix of extended reals, indexed as the programs index theirs. -/
abbrev Mat (a b : ℕ) : Type := (⟨2, ![a, b]⟩ : Shape).Idx → EReal

/-- The leaky rectifier with slope f32(0.2): `v` where `v ≥ 0`, else `0.2 · v` (the slope is the one f32 word both
    programs carry, never evaluated). -/
def leaky (v : EReal) : EReal :=
  Scalar.select (FloatOps.cmpf (F := Ideal) (φ := .f32) .oge v (Ideal.ofBits .f32 0x00000000#32)) v
    (Ideal.ofBits .f32 0x3E4CCCCD#32 * v)

/-- One dense layer at output `j`: the row against column `j` of the weights, plus the bias. -/
def dense {K N : ℕ} (W : Mat K N) (b : Fin N → EReal) (x : Fin K → EReal) (j : Fin N) : EReal :=
  (∑ k : Fin K, x k * W (ix2 k j)) + b j

/-- The six parameters of the network. -/
structure Net where
  W1 : Mat 2048 2048
  b1 : Fin 2048 → EReal
  W2 : Mat 2048 2048
  b2 : Fin 2048 → EReal
  W3 : Mat 2048 4096
  b3 : Fin 4096 → EReal

/-- The network whose biases are given as vectors (one entry per output). -/
def Net.ofArrays (W1 : Mat 2048 2048) (b1 : (⟨1, ![2048]⟩ : Shape).Idx → EReal) (W2 : Mat 2048 2048)
    (b2 : (⟨1, ![2048]⟩ : Shape).Idx → EReal) (W3 : Mat 2048 4096) (b3 : (⟨1, ![4096]⟩ : Shape).Idx → EReal) : Net :=
  ⟨W1, fun j => b1 (ix1 j), W2, fun j => b2 (ix1 j), W3, fun j => b3 (ix1 j)⟩

/-- The network whose biases are given as one-row matrices. -/
def Net.ofRows (W1 : Mat 2048 2048) (b1 : Mat 1 2048) (W2 : Mat 2048 2048) (b2 : Mat 1 2048) (W3 : Mat 2048 4096)
    (b3 : Mat 1 4096) : Net :=
  ⟨W1, fun j => b1 (ix2 (0 : Fin 1) j), W2, fun j => b2 (ix2 (0 : Fin 1) j), W3, fun j => b3 (ix2 (0 : Fin 1) j)⟩

/-- First hidden row. -/
def hid1 (P : Net) (x : Fin 2048 → EReal) : Fin 2048 → EReal := fun j => leaky (dense P.W1 P.b1 x j)
/-- Second hidden row. -/
def hid2 (P : Net) (x : Fin 2048 → EReal) : Fin 2048 → EReal := fun j => leaky (dense P.W2 P.b2 (hid1 P x) j)
/-- The output row, 4096 wide: log-scale pre-activations, then shifts. -/
def outv (P : Net) (x : Fin 2048 → EReal) : Fin 4096 → EReal := dense P.W3 P.b3 (hid2 P x)

/-- Column `j` of the left half of a 4096-wide row. -/
def lo (j : Fin 2048) : Fin 4096 := ⟨j.val, by have := j.isLt; omega⟩
/-- Column `j` of the right half. -/
def hi (j : Fin 2048) : Fin 4096 := ⟨2048 + j.val, by have := j.isLt; omega⟩

/-- The log-scale `s = 2 · tanh` of the left half. -/
def sv (P : Net) (x : Fin 2048 → EReal) (j : Fin 2048) : EReal :=
  Ideal.ofBits .f32 0x40000000#32 * Ideal.tanh (outv P x (lo j))
/-- The transformed row: `u · exp s + t`. -/
def yv (P : Net) (x u : Fin 2048 → EReal) (j : Fin 2048) : EReal :=
  u j * Ideal.exp (sv P x j) + outv P x (hi j)
/-- The row's log-determinant: the sum of the log-scales. -/
def ldv (P : Net) (x : Fin 2048 → EReal) : EReal := ∑ j : Fin 2048, sv P x j

/-! ## The two spellings of a matrix product, read at an index -/

/-- A dimension record that contracts the left operand's columns with the right operand's rows is the plain one. -/
theorem dims_eq_plain {m k n : ℕ} (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The host's product of an m×k by a k×n matrix at (a, b): the sum over the contracted coordinate. -/
theorem hostDot_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  exact StackMember.dotGeneral_plain_apply prec A B a b

/-- A kernel's product into the zero accumulator at (a, b): the same sum. -/
theorem mxuDot_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul d prec A B (constant ⟨2, ![m, n]⟩ .f32 0x00000000#32) (ix2 a b) = ∑ c : Fin k, A (ix2 a c) * B (ix2 c b) := by
  rw [matmul_zero_eq_dotGeneral]
  exact hostDot_apply d hd prec A B a b

end Cert.Coupling

end
-- ==== Proof.KerPayload.lean ====
/-
  What the kernel's body leaves in its two output blocks, read one entry at a time, on the extended reals.

  The body treats a block of 64 rows.  Entry (p, j) of the block it stores into the transformed half is computed from
  row p of the frozen half and of the transformed half alone: three affine maps with a leaky rectifier after the first
  two give a row of 4096 numbers; twice the hyperbolic tangent of its left half is the log-scale, its right half the
  shift, and the stored entry is (row p of the transformed half at j) · exp(log-scale at j) + (shift at j).  Entry p of
  the other block is the sum over j of the log-scales of row p.  Each statement below reads one operation of the body
  at an index; a matrix product read at (p, j) is a finite sum over the contracted coordinate, and no property of the
  extended reals beyond what these sums and products ARE is used.
-/
import proofs.«411231_j1434519077071_1_alg».proof.Proof.Gen.KernelIdeal.Frame
import proofs.«411231_j1434519077071_1_alg».proof.Proof.Spec

noncomputable section

namespace Cert.KernelIdeal.Payload

open Cert.KernelIdeal Cert.KernelIdeal.Gen Idealize.ShloMosaic Idealize.ShloMosaic.ValueIdx

/-! ## One layer at an index -/

/-- A product into the zero accumulator plus a one-row bias spread over the rows, read at (p, j): the row p of the
    left operand against column j of the right one, plus the bias at j. -/
theorem affine_apply {m K N : ℕ} (d : DotDims ⟨2, ![m, K]⟩ ⟨2, ![K, N]⟩ ⟨2, ![m, N]⟩) (hd : d = DotDims.plain m K N)
    (A : FVec Ideal ⟨2, ![m, K]⟩ .bf16) (W : FVec Ideal ⟨2, ![K, N]⟩ .bf16) (b : FVec Ideal ⟨2, ![1, N]⟩ .f32)
    (hb : (⟨2, ![1, N]⟩ : Shape).Broadcasts ⟨2, ![m, N]⟩) (p : Fin m) (j : Fin N) :
    addf (matmul d none A W (constant ⟨2, ![m, N]⟩ .f32 0x00000000#32)) (broadcastTo ⟨2, ![m, N]⟩ b hb) (ix2 p j)
      = Cert.Coupling.dense W (fun c => b (ix2 (0 : Fin 1) c)) (fun k => A (ix2 p k)) j := by
  rw [addf_apply, Cert.Coupling.mxuDot_apply d hd, broadcastTo_1b_ab_apply]
  rfl

/-- The rectifier as the body spells it — keep an entry that is at least zero, else scale it by the slope word — and
    the change of format after it, read at an index: the row-wise rectifier of the entry. -/
theorem rectify_apply {s : Shape} (Z : FVec Ideal s .f32) (h : FTy.bits .bf16 < FTy.bits .f32) (i : s.Idx) :
    (truncf .bf16 (select (cmpf .oge Z (broadcast s (Scalar.ofBits (F := Ideal) .f32 0x00000000#32))) Z
        (mulf (broadcast s (Scalar.ofBits (F := Ideal) .f32 0x3E4CCCCD#32)) Z)) h : FVec Ideal s .bf16) i
      = Cert.Coupling.leaky (Z i) := rfl

/-! ## The three layers: the 4096-wide row -/

/-- The body's 64 × 4096 value read at (p, q): the three-layer network of row p of the frozen half, at q. -/
theorem pay4_apply (v0 : Vec Ideal S64x2048 .bf16) (v2 : Vec Ideal S2048x2048 .bf16) (v5 : Vec Ideal S1x2048 .f32)
    (v15 : Vec Ideal S2048x2048 .bf16) (v18 : Vec Ideal S1x2048 .f32) (v28 : Vec Ideal S2048x4096 .bf16)
    (v31 : Vec Ideal S1x4096 .f32) (p : Fin 64) (q : Fin 4096) :
    k0_pay4 v0 v2 v5 v15 v18 v28 v31 (ix2 p q)
      = Cert.Coupling.outv (Cert.Coupling.Net.ofRows v2 v5 v15 v18 v28 v31) (fun k => v0 (ix2 p k)) q := by
  unfold k0_pay4
  simp only [shapeCast_self]
  refine (affine_apply _ rfl _ _ _ _ p q).trans ?_
  refine congrArg (fun f => Cert.Coupling.dense v28 (fun c => v31 (ix2 (0 : Fin 1) c)) f q) (funext fun k => ?_)
  refine (rectify_apply _ _ _).trans (congrArg Cert.Coupling.leaky ?_)
  refine (affine_apply _ rfl _ _ _ _ p k).trans ?_
  refine congrArg (fun f => Cert.Coupling.dense v15 (fun c => v18 (ix2 (0 : Fin 1) c)) f k) (funext fun k' => ?_)
  refine (rectify_apply _ _ _).trans (congrArg Cert.Coupling.leaky ?_)
  exact affine_apply _ rfl _ _ _ _ p k'

/-! ## The two halves of the row, the log-scale and the stored entry -/

/-- The left half of the row under the hyperbolic tangent, at (p, j). -/
theorem pay6_apply (v0 : Vec Ideal S64x2048 .bf16) (v2 : Vec Ideal S2048x2048 .bf16) (v5 : Vec Ideal S1x2048 .f32)
    (v15 : Vec Ideal S2048x2048 .bf16) (v18 : Vec Ideal S1x2048 .f32) (v28 : Vec Ideal S2048x4096 .bf16)
    (v31 : Vec Ideal S1x4096 .f32) (p : Fin 64) (j : Fin 2048) :
    k0_pay6 v0 v2 v5 v15 v18 v28 v31 (ix2 p j)
      = Ideal.tanh (Cert.Coupling.outv (Cert.Coupling.Net.ofRows v2 v5 v15 v18 v28 v31) (fun k => v0 (ix2 p k))
          (Cert.Coupling.lo j)) := by
  unfold k0_pay6
  show Ideal.tanh (extractStridedSlice S64x2048 ![0, 0] (k0_pay4 v0 v2 v5 v15 v18 v28 v31)
    slices_S64x4096_o0_0_S64x2048 (ix2 p j)) = _
  refine congrArg Ideal.tanh ?_
  refine (slice2_axis1_apply 0 _ _ p j (Cert.Coupling.lo j) (Nat.zero_add _).symm).trans ?_
  exact pay4_apply v0 v2 v5 v15 v18 v28 v31 p (Cert.Coupling.lo j)

/-- The right half of the row, at (p, j). -/
theorem pay5_apply (v0 : Vec Ideal S64x2048 .bf16) (v2 : Vec Ideal S2048x2048 .bf16) (v5 : Vec Ideal S1x2048 .f32)
    (v15 : Vec Ideal S2048x2048 .bf16) (v18 : Vec Ideal S1x2048 .f32) (v28 : Vec Ideal S2048x4096 .bf16)
    (v31 : Vec Ideal S1x4096 .f32) (p : Fin 64) (j : Fin 2048) :
    k0_pay5 v0 v2 v5 v15 v18 v28 v31 (ix2 p j)
      = Cert.Coupling.outv (Cert.Coupling.Net.ofRows v2 v5 v15 v18 v28 v31) (fun k => v0 (ix2 p k))
          (Cert.Coupling.hi j) := by
  unfold k0_pay5
  refine (slice2_axis1_apply 2048 _ _ p j (Cert.Coupling.hi j) rfl).trans ?_
  exact pay4_apply v0 v2 v5 v15 v18 v28 v31 p (Cert.Coupling.hi j)

/-- Twice a value, as the body spells it, at an index. -/
theorem pay1_apply (T : FVec Ideal S64x2048 .f32) (i : S64x2048.Idx) :
    k0_pay1 T i = Ideal.ofBits .f32 0x40000000#32 * T i := rfl

/-- The stored entry: the transformed half's entry times the exponential of the doubled value, plus the shift. -/
theorem pay2_apply (Sh T : FVec Ideal S64x2048 .f32) (U : Vec Ideal S64x2048 .f32) (i : S64x2048.Idx) :
    k0_pay2 Sh T U i = U i * Ideal.exp (Ideal.ofBits .f32 0x40000000#32 * T i) + Sh i := by
  unfold k0_pay2
  simp only [shapeCast_self]
  rfl

/-! ## The block stored into the transformed half -/

/-- Entry (p, j) of the block the body stores into the transformed half: the coupling's transformed row of row p, at j. -/
theorem moved_apply (x0 : Vec Ideal S64x2048 .bf16) (x1 : Vec Ideal S64x2048 .f32) (x2 : Vec Ideal S2048x2048 .bf16) (x3 : Vec Ideal S1x2048 .f32)
    (x4 : Vec Ideal S2048x2048 .bf16) (x5 : Vec Ideal S1x2048 .f32) (x6 : Vec Ideal S2048x4096 .bf16) (x7 : Vec Ideal S1x4096 .f32)
    (p : Fin 64) (j : Fin 2048) :
    out0_8 x0 x1 x2 x3 x4 x5 x6 x7 (ix2 p j)
      = Cert.Coupling.yv (Cert.Coupling.Net.ofRows x2 x3 x4 x5 x6 x7) (fun k => x0 (ix2 p k)) (fun k => x1 (ix2 p k)) j := by
  have hz : (![0, 0] : Fin 2 → Nat) = fun _ => 0 := by funext a; fin_cases a <;> rfl
  unfold out0_8
  rw [View.canon_unit_zero hz]
  simp only [View.ld_unit_zero (S := S64x2048) hz, View.ld_unit_zero (S := S2048x2048) hz,
    View.ld_unit_zero (S := S1x2048) hz, View.ld_unit_zero (S := S2048x4096) hz, View.ld_unit_zero (S := S1x4096) hz]
  rw [pay2_apply, pay5_apply, pay6_apply]
  rfl

/-! ## The block of log-determinants -/

/-- A 64-vector cast to a 64 × 1 block reads, at (p, 0), the vector at p (same row-major position). -/
theorem cast_col_apply {α : Type} (x : S64.Idx → α) (p : Fin 64) :
    shapeCast S64x1 x shapeCasts_S64_S64x1 (ix2 p (0 : Fin 1)) = x (ix1 p) :=
  shapeCast_apply x shapeCasts_S64_S64x1 _ _ (by
    rw [Shape.rowMajor_val_two, Shape.rowMajor_val_one]
    show p.val = p.val * 1 + 0
    omega)

/-- The index the sum along a row runs over: row p with the coordinate k put back. -/
theorem lift_row (p : Fin 64) (k : Fin 2048) :
    reduces_S64x2048_S64.lift (ix1 p) k = ix2 p k := by
  funext a
  apply Fin.ext
  match a with
  | ⟨0, _⟩ => rfl
  | ⟨1, _⟩ => rfl

/-- The sum along the columns, read at row p: the sum of the row's entries. -/
theorem rowsum_apply (src : FVec Ideal S64x2048 .f32) (acc : BitVec (FTy.bits .f32)) (hφ : FKind.Formats .f32)
    (hacc : acc = FKind.add.neutral .f32 hφ) (p : Fin 64) :
    multiReduction .add [1] S64 src acc reduces_S64x2048_S64 hφ hacc (ix1 p) = ∑ k : Fin 2048, src (ix2 p k) := by
  refine (Ideal.multiReduction_add_single src acc reduces_S64x2048_S64 hφ hacc (ix1 p)).trans ?_
  exact Finset.sum_congr rfl fun k _ => congrArg src (lift_row p k)

/-- Entry (p, 0) of the other block: the log-determinant of row p, the sum of its 2048 log-scales. -/
theorem logdet_apply (x0 : Vec Ideal S64x2048 .bf16) (x1 : Vec Ideal S64x2048 .f32) (x2 : Vec Ideal S2048x2048 .bf16) (x3 : Vec Ideal S1x2048 .f32)
    (x4 : Vec Ideal S2048x2048 .bf16) (x5 : Vec Ideal S1x2048 .f32) (x6 : Vec Ideal S2048x4096 .bf16) (x7 : Vec Ideal S1x4096 .f32)
    (p : Fin 64) :
    out0_9 x0 x1 x2 x3 x4 x5 x6 x7 (ix2 p (0 : Fin 1))
      = Cert.Coupling.ldv (Cert.Coupling.Net.ofRows x2 x3 x4 x5 x6 x7) (fun k => x0 (ix2 p k)) := by
  have hz : (![0, 0] : Fin 2 → Nat) = fun _ => 0 := by funext a; fin_cases a <;> rfl
  unfold out0_9
  rw [View.canon_unit_zero hz]
  simp only [View.ld_unit_zero (S := S64x2048) hz, View.ld_unit_zero (S := S2048x2048) hz,
    View.ld_unit_zero (S := S1x2048) hz, View.ld_unit_zero (S := S2048x4096) hz, View.ld_unit_zero (S := S1x4096) hz]
  unfold k0_pay3
  refine (cast_col_apply _ p).trans ?_
  refine (rowsum_apply _ _ _ _ p).trans ?_
  refine Finset.sum_congr rfl fun k _ => ?_
  rw [pay1_apply, pay6_apply]
  rfl

end Cert.KernelIdeal.Payload

end
-- ==== Proof.KerArrays.lean ====
/-
  The kernel's two output arrays after its run, as functions of the program's arguments.

  The grid has 64 points; point `t` is handed rows `64 t … 64 t + 63` of the frozen half and of the transformed half of
  the input (both gathered by the host before the launch), the three weight matrices and the three bias rows whole, and
  writes back rows `64 t … 64 t + 63` of the transformed output and of the log-determinant column.  What the body
  stores at row `p` of its block is the row-wise coupling of row `64 t + p` of its operands; the 64 blocks tile both output
  arrays, so after the run each array is the row-wise coupling of the whole operands, row by row.
-/
import proofs.«411231_j1434519077071_1_alg».proof.Proof.Gen.KernelIdeal.Frame
import proofs.«411231_j1434519077071_1_alg».proof.Proof.Spec
import proofs.«411231_j1434519077071_1_alg».proof.Proof.KerPayload
import Idealize.ShloMosaic.Lib.Pipeline.Value
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the region finds in its operands' arrays -/

/-- The column indices as the gathers and the scatter take them: `i + 4096` where `i < 0`, else `i`. -/
def cols (i : IVec S2048 32) : IVec S2048x1 32 :=
  broadcastInDim S2048x1 ![0] bcast_S2048_S2048x1_0
    (select (cmpi .slt i (broadcastInDim S2048 ![] bcast_S_S2048 (constantI S_ 32 0#32)))
      (addi i (broadcastInDim S2048 ![] bcast_S_S2048 (constantI S_ 32 4096#32))) i)

/-- The columns `i` of every row of `x`. -/
def pick (x : FVec Ideal S4096x4096 .f32) (i : IVec S2048 32) : FVec Ideal S4096x2048 .f32 :=
  Host.gather gather_S4096x4096_S2048x1_S4096x2048_0_1_n_n_1_1_40961 x (cols i)

/-- The frozen half, in the narrow format (the same extended reals). -/
theorem V_v14 (c : Dev nD) :
    V m c main_v14 = truncf .bf16 (pick (m ((c : Thread nD τ).loc main_arg0)) (m ((c : Thread nD τ).loc main_arg7))) bitsLt_bf16_f32 := by
  show StableHlo.after hostOps0 (fun b => m (c, b)) (Proc.devRef .tc main_v14) = _
  after_results
  rfl
/-- The transformed half. -/
theorem V_v13 (c : Dev nD) :
    V m c main_v13 = pick (m ((c : Thread nD τ).loc main_arg0)) (m ((c : Thread nD τ).loc main_arg8)) := by
  show StableHlo.after hostOps0 (fun b => m (c, b)) (Proc.devRef .tc main_v13) = _
  after_results
  rfl
/-- The three weight matrices, in the narrow format. -/
theorem V_v15 (c : Dev nD) : V m c main_v15 = (truncf .bf16 (m ((c : Thread nD τ).loc main_arg1) : FVec Ideal S2048x2048 .f32) bitsLt_bf16_f32 : FVec Ideal S2048x2048 .bf16) := by
  show StableHlo.after hostOps0 (fun b => m (c, b)) (Proc.devRef .tc main_v15) = _
  after_results
theorem V_v16 (c : Dev nD) : V m c main_v16 = (truncf .bf16 (m ((c : Thread nD τ).loc main_arg3) : FVec Ideal S2048x2048 .f32) bitsLt_bf16_f32 : FVec Ideal S2048x2048 .bf16) := by
  show StableHlo.after hostOps0 (fun b => m (c, b)) (Proc.devRef .tc main_v16) = _
  after_results
theorem V_v17 (c : Dev nD) : V m c main_v17 = (truncf .bf16 (m ((c : Thread nD τ).loc main_arg5) : FVec Ideal S2048x4096 .f32) bitsLt_bf16_f32 : FVec Ideal S2048x4096 .bf16) := by
  show StableHlo.after hostOps0 (fun b => m (c, b)) (Proc.devRef .tc main_v17) = _
  after_results
/-- The three bias vectors, as one-row matrices. -/
theorem V_v18 (c : Dev nD) : V m c main_v18 = shapeCast S1x2048 (m ((c : Thread nD τ).loc main_arg2)) shapeCasts_S2048_S1x2048 := by
  show StableHlo.after hostOps0 (fun b => m (c, b)) (Proc.devRef .tc main_v18) = _
  after_results
  rfl
theorem V_v19 (c : Dev nD) : V m c main_v19 = shapeCast S1x2048 (m ((c : Thread nD τ).loc main_arg4)) shapeCasts_S2048_S1x2048 := by
  show StableHlo.after hostOps0 (fun b => m (c, b)) (Proc.devRef .tc main_v19) = _
  after_results
  rfl
theorem V_v20 (c : Dev nD) : V m c main_v20 = shapeCast S1x4096 (m ((c : Thread nD τ).loc main_arg6)) shapeCasts_S4096_S1x4096 := by
  show StableHlo.after hostOps0 (fun b => m (c, b)) (Proc.devRef .tc main_v20) = _
  after_results
  rfl

/-! ## The blocks -/

/-- The printed index maps over the grid: the two row-blocked inputs and the two outputs move down one block of rows
    per point, the weights and biases stay whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Row `p` of the block of 64 rows that point `t` treats. -/
def row (t : Fin cfg0.N) (p : Fin 64) : Fin 4096 :=
  ⟨64 * t.val + p.val, by have := t.isLt; have hN : cfg0.N = 64 := N_0; have := p.isLt; omega⟩

/-- The frozen half's block at point `t` is rows `64 t … 64 t + 63` of the array. -/
theorem iblk0_apply (c : Dev nD) (t : Fin cfg0.N) (p : Fin 64) (k : Fin 2048) :
    (iblk m c 0 t : Vec Ideal S64x2048 .bf16) (ix2 p k) = (V m c main_v14 : S4096x2048.Idx → EReal) (ix2 (row t p) k) := by
  obtain ⟨e0, e1, -⟩ := idx_facts t
  unfold iblk
  rw [View.read_apply]
  show V m c main_v14 _ = V m c main_v14 _
  congr 1
  funext a
  apply Fin.ext
  match a with
  | ⟨0, _⟩ => show win0_0.index t (0 : Fin 2) * 64 + 1 * p.val = 64 * t.val + p.val; rw [e0]; omega
  | ⟨1, _⟩ => show win0_0.index t (1 : Fin 2) * 2048 + 1 * k.val = k.val; rw [e1]; omega

/-- The transformed half's block at point `t`: the same rows. -/
theorem iblk1_apply (c : Dev nD) (t : Fin cfg0.N) (p : Fin 64) (k : Fin 2048) :
    (iblk m c 1 t : Vec Ideal S64x2048 .f32) (ix2 p k) = (V m c main_v13 : S4096x2048.Idx → EReal) (ix2 (row t p) k) := by
  obtain ⟨-, -, e0, e1, -⟩ := idx_facts t
  unfold iblk
  rw [View.read_apply]
  show V m c main_v13 _ = V m c main_v13 _
  congr 1
  funext a
  apply Fin.ext
  match a with
  | ⟨0, _⟩ => show win0_1.index t (0 : Fin 2) * 64 + 1 * p.val = 64 * t.val + p.val; rw [e0]; omega
  | ⟨1, _⟩ => show win0_1.index t (1 : Fin 2) * 2048 + 1 * k.val = k.val; rw [e1]; omega

/-- A weight matrix's block is the whole matrix at every point. -/
theorem iblk2_eq (c : Dev nD) (t : Fin cfg0.N) : (iblk m c 2 t : Vec Ideal S2048x2048 .bf16) = V m c main_v15 := by
  obtain ⟨-, -, -, -, e0, e1, -⟩ := idx_facts t
  funext y
  unfold iblk
  rw [View.read_apply]
  show V m c main_v15 _ = V m c main_v15 _
  congr 1
  funext a
  apply Fin.ext
  match a with
  | ⟨0, _⟩ => show win0_2.index t (0 : Fin 2) * 2048 + 1 * (y 0).val = (y 0).val; rw [e0]; omega
  | ⟨1, _⟩ => show win0_2.index t (1 : Fin 2) * 2048 + 1 * (y 1).val = (y 1).val; rw [e1]; omega
theorem iblk3_eq (c : Dev nD) (t : Fin cfg0.N) : (iblk m c 3 t : Vec Ideal S1x2048 .f32) = V m c main_v18 := by
  obtain ⟨-, -, -, -, -, -, e0, e1, -⟩ := idx_facts t
  funext y
  unfold iblk
  rw [View.read_apply]
  show V m c main_v18 _ = V m c main_v18 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 2048 + 1 * (y 1).val = (y 1).val; rw [e1]; omega
theorem iblk4_eq (c : Dev nD) (t : Fin cfg0.N) : (iblk m c 4 t : Vec Ideal S2048x2048 .bf16) = V m c main_v16 := by
  obtain ⟨-, -, -, -, -, -, -, -, e0, e1, -⟩ := idx_facts t
  funext y
  unfold iblk
  rw [View.read_apply]
  show V m c main_v16 _ = V m c main_v16 _
  congr 1
  funext a
  apply Fin.ext
  match a with
  | ⟨0, _⟩ => show win0_4.index t (0 : Fin 2) * 2048 + 1 * (y 0).val = (y 0).val; rw [e0]; omega
  | ⟨1, _⟩ => show win0_4.index t (1 : Fin 2) * 2048 + 1 * (y 1).val = (y 1).val; rw [e1]; omega
theorem iblk5_eq (c : Dev nD) (t : Fin cfg0.N) : (iblk m c 5 t : Vec Ideal S1x2048 .f32) = V m c main_v19 := by
  obtain ⟨-, -, -, -, -, -, -, -, -, -, e0, e1, -⟩ := idx_facts t
  funext y
  unfold iblk
  rw [View.read_apply]
  show V m c main_v19 _ = V m c main_v19 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 2048 + 1 * (y 1).val = (y 1).val; rw [e1]; omega
theorem iblk6_eq (c : Dev nD) (t : Fin cfg0.N) : (iblk m c 6 t : Vec Ideal S2048x4096 .bf16) = V m c main_v17 := by
  obtain ⟨-, -, -, -, -, -, -, -, -, -, -, -, e0, e1, -⟩ := idx_facts t
  funext y
  unfold iblk
  rw [View.read_apply]
  show V m c main_v17 _ = V m c main_v17 _
  congr 1
  funext a
  apply Fin.ext
  match a with
  | ⟨0, _⟩ => show win0_6.index t (0 : Fin 2) * 2048 + 1 * (y 0).val = (y 0).val; rw [e0]; omega
  | ⟨1, _⟩ => show win0_6.index t (1 : Fin 2) * 4096 + 1 * (y 1).val = (y 1).val; rw [e1]; omega
theorem iblk7_eq (c : Dev nD) (t : Fin cfg0.N) : (iblk m c 7 t : Vec Ideal S1x4096 .f32) = V m c main_v20 := by
  obtain ⟨-, -, -, -, -, -, -, -, -, -, -, -, -, -, e0, e1, -⟩ := idx_facts t
  funext y
  unfold iblk
  rw [View.read_apply]
  show V m c main_v20 _ = V m c main_v20 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 4096 + 1 * (y 1).val = (y 1).val; rw [e1]; omega

/-! ## The two output arrays as functions of the arguments -/

/-- The network of the argument arrays. -/
def net (c : Dev nD) : Cert.Coupling.Net :=
  Cert.Coupling.Net.ofArrays (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))

/-- Row `r` of the frozen half of the input. -/
def frozenRow (c : Dev nD) (r : Fin 4096) : Fin 2048 → EReal :=
  fun k => pick (m ((c : Thread nD τ).loc main_arg0)) (m ((c : Thread nD τ).loc main_arg7)) (ix2 r k)
/-- Row `r` of the transformed half of the input. -/
def movedRow (c : Dev nD) (r : Fin 4096) : Fin 2048 → EReal :=
  fun k => pick (m ((c : Thread nD τ).loc main_arg0)) (m ((c : Thread nD τ).loc main_arg8)) (ix2 r k)

/-- The transformed half after the coupling: row by row. -/
def moved (c : Dev nD) : S4096x2048.Idx → EReal :=
  fun i => Cert.Coupling.yv (net m c) (frozenRow m c (i 0)) (movedRow m c (i 0)) (i 1)
/-- The log-determinants, as the kernel's one-column array. -/
def logdetCol (c : Dev nD) : S4096x1.Idx → EReal :=
  fun i => Cert.Coupling.ldv (net m c) (frozenRow m c (i 0))

/-- The network the body sees in its weight and bias blocks is the arguments' network: a change of format keeps the
    value, and a vector cast to one row keeps its entries. -/
theorem netBlocks_eq (c : Dev nD) :
    Cert.Coupling.Net.ofRows (V m c main_v15) (V m c main_v18) (V m c main_v16) (V m c main_v19) (V m c main_v17) (V m c main_v20)
      = net m c := by
  rw [V_v15, V_v16, V_v17, V_v18, V_v19, V_v20]
  unfold net Cert.Coupling.Net.ofRows Cert.Coupling.Net.ofArrays
  congr 1 <;> funext j
  · exact shapeCast_a_1a_apply _ _ (0 : Fin 1) j
  · exact shapeCast_a_1a_apply _ _ (0 : Fin 1) j
  · exact shapeCast_a_1a_apply _ _ (0 : Fin 1) j

/-! ## What each point writes back, and the arrays after the run -/

/-- Row `64 t + p` of the output array is row `p` of point `t`'s block. -/
theorem emb8 (t : Fin cfg0.N) (p : Fin 64) (j : Fin 2048) :
    ((cfg0.win 8).blk t).view.emb (ix2 p j) = ix2 (row t p) j := by
  obtain ⟨-, -, -, -, -, -, -, -, -, -, -, -, -, -, -, -, e0, e1, -⟩ := idx_facts t
  funext a
  apply Fin.ext
  match a with
  | ⟨0, _⟩ => show win0_8.index t (0 : Fin 2) * 64 + 1 * p.val = 64 * t.val + p.val; rw [e0]; omega
  | ⟨1, _⟩ => show win0_8.index t (1 : Fin 2) * 2048 + 1 * j.val = j.val; rw [e1]; omega
theorem emb9 (t : Fin cfg0.N) (p : Fin 64) (u : Fin 1) :
    ((cfg0.win 9).blk t).view.emb (ix2 p u) = ix2 (row t p) u := by
  obtain ⟨-, -, -, -, -, -, -, -, -, -, -, -, -, -, -, -, -, -, e0, e1⟩ := idx_facts t
  funext a
  apply Fin.ext
  match a with
  | ⟨0, _⟩ => show win0_9.index t (0 : Fin 2) * 64 + 1 * p.val = 64 * t.val + p.val; rw [e0]; omega
  | ⟨1, _⟩ => show win0_9.index t (1 : Fin 2) * 1 + 1 * u.val = u.val; rw [e1]; omega

/-- The frozen half's block, row by row, is the gathered rows (the narrow format keeps the value). -/
theorem frozen_block (c : Dev nD) (t : Fin cfg0.N) (p : Fin 64) :
    (fun k => (iblk m c 0 t : Vec Ideal S64x2048 .bf16) (ix2 p k)) = frozenRow m c (row t p) := by
  funext k
  rw [iblk0_apply, V_v14]
  rfl
theorem moved_block (c : Dev nD) (t : Fin cfg0.N) (p : Fin 64) :
    (fun k => (iblk m c 1 t : Vec Ideal S64x2048 .f32) (ix2 p k)) = movedRow m c (row t p) := by
  funext k
  rw [iblk1_apply, V_v13]
  rfl

/-- WHAT POINT `t` WRITES BACK to the first output is block `t` of `moved`. -/
theorem flushed8_eq (c : Dev nD) (t : Fin cfg0.N) :
    (dats m 0 c).flushed 8 t = ((cfg0.win 8).blk t).view.read (Elt Ideal) (moved m c) := by
  show (cfg0.win 8).cut (grid0.coords t) ((dats m 0 c).after 8 t) = _
  rw [after0_8]
  funext y
  obtain ⟨p, j, rfl⟩ : ∃ (p : Fin 64) (j : Fin 2048), y = ix2 p j := ⟨y 0, y 1, eq_ix2 y⟩
  rw [View.read_apply, emb8]
  show out0_8 (iblk m c 0 t) (iblk m c 1 t) (iblk m c 2 t) (iblk m c 3 t) (iblk m c 4 t) (iblk m c 5 t) (iblk m c 6 t) (iblk m c 7 t) (ix2 p j)
    = Cert.Coupling.yv (net m c) (frozenRow m c (row t p)) (movedRow m c (row t p)) j
  refine (Cert.KernelIdeal.Payload.moved_apply _ _ _ _ _ _ _ _ p j).trans ?_
  rw [frozen_block, moved_block, iblk2_eq, iblk3_eq, iblk4_eq, iblk5_eq, iblk6_eq, iblk7_eq, netBlocks_eq]
theorem flushed9_eq (c : Dev nD) (t : Fin cfg0.N) :
    (dats m 0 c).flushed 9 t = ((cfg0.win 9).blk t).view.read (Elt Ideal) (logdetCol m c) := by
  show (cfg0.win 9).cut (grid0.coords t) ((dats m 0 c).after 9 t) = _
  rw [after0_9]
  funext y
  obtain ⟨p, u, rfl⟩ : ∃ (p : Fin 64) (u : Fin 1), y = ix2 p u := ⟨y 0, y 1, eq_ix2 y⟩
  obtain rfl : u = 0 := Subsingleton.elim _ _
  rw [View.read_apply, emb9]
  show out0_9 (iblk m c 0 t) (iblk m c 1 t) (iblk m c 2 t) (iblk m c 3 t) (iblk m c 4 t) (iblk m c 5 t) (iblk m c 6 t) (iblk m c 7 t) (ix2 p (0 : Fin 1))
    = Cert.Coupling.ldv (net m c) (frozenRow m c (row t p))
  refine (Cert.KernelIdeal.Payload.logdet_apply _ _ _ _ _ _ _ _ p).trans ?_
  rw [frozen_block, iblk2_eq, iblk3_eq, iblk4_eq, iblk5_eq, iblk6_eq, iblk7_eq, netBlocks_eq]

/-- Every row of the first output lies in the block of the point that treats it: row `r` in point `r / 64`'s. -/
theorem cover8 (i : S4096x2048.Idx) : ∃ t : Fin cfg0.N, (cfg0.win 8).flush t = true ∧ i ∈ ((cfg0.win 8).blk t).view.set := by
  have hN : cfg0.N = 64 := N_0
  have h0 : (i 0).val < 4096 := (i 0).isLt
  have h1 : (i 1).val < 2048 := (i 1).isLt
  let t : Fin cfg0.N := ⟨(i 0).val / 64, by omega⟩
  obtain ⟨-, -, -, -, -, -, -, -, -, -, -, -, -, -, -, -, e0, e1, -⟩ := idx_facts t
  refine ⟨t, flush0_8 t, ?_⟩
  show i ∈ ((View.whole main_v21_0).slice (win0_8.rect t)).set
  rw [View.set_slice_whole, Rect.mem_set_unit]
  intro a
  match a with
  | ⟨0, _⟩ => show win0_8.index t (0 : Fin 2) * 64 ≤ (i 0).val ∧ (i 0).val < win0_8.index t (0 : Fin 2) * 64 + 64; rw [e0]; show (i 0).val / 64 * 64 ≤ (i 0).val ∧ (i 0).val < (i 0).val / 64 * 64 + 64; omega
  | ⟨1, _⟩ => show win0_8.index t (1 : Fin 2) * 2048 ≤ (i 1).val ∧ (i 1).val < win0_8.index t (1 : Fin 2) * 2048 + 2048; rw [e1]; omega
theorem cover9 (i : S4096x1.Idx) : ∃ t : Fin cfg0.N, (cfg0.win 9).flush t = true ∧ i ∈ ((cfg0.win 9).blk t).view.set := by
  have hN : cfg0.N = 64 := N_0
  have h0 : (i 0).val < 4096 := (i 0).isLt
  have h1 : (i 1).val < 1 := (i 1).isLt
  let t : Fin cfg0.N := ⟨(i 0).val / 64, by omega⟩
  obtain ⟨-, -, -, -, -, -, -, -, -, -, -, -, -, -, -, -, -, -, e0, e1⟩ := idx_facts t
  refine ⟨t, flush0_9 t, ?_⟩
  show i ∈ ((View.whole main_v21_1).slice (win0_9.rect t)).set
  rw [View.set_slice_whole, Rect.mem_set_unit]
  intro a
  match a with
  | ⟨0, _⟩ => show win0_9.index t (0 : Fin 2) * 64 ≤ (i 0).val ∧ (i 0).val < win0_9.index t (0 : Fin 2) * 64 + 64; rw [e0]; show (i 0).val / 64 * 64 ≤ (i 0).val ∧ (i 0).val < (i 0).val / 64 * 64 + 64; omega
  | ⟨1, _⟩ => show win0_9.index t (1 : Fin 2) * 1 ≤ (i 1).val ∧ (i 1).val < win0_9.index t (1 : Fin 2) * 1 + 1; rw [e1]; omega

/-- THE TWO OUTPUT ARRAYS after the run: the blocks tile them. -/
theorem final8 (c : Dev nD) : (dats m 0 c).arrAt 8 cfg0.N = moved m c :=
  (dats m 0 c).arrAt_eq_of_cover 8 (moved m c) (fun t _ => flushed8_eq m c t) cover8
theorem final9 (c : Dev nD) : (dats m 0 c).arrAt 9 cfg0.N = logdetCol m c :=
  (dats m 0 c).arrAt_eq_of_cover 9 (logdetCol m c) (fun t _ => flushed9_eq m c t) cover9

end Cert.KernelIdeal.Arrays
end
-- ==== Proof.KerRun.lean ====
/-
  The kernel program's run, read: what its two result buffers hold when @main has ended.

  The region leaves the transformed half after the coupling and the column of log-determinants in its two output
  arrays (KerArrays.lean).  The host lines after the region then normalise the transformed columns' indices, scatter the
  first array over the input at those columns, and flatten the column to a vector; no argument buffer is written.
-/
import proofs.«411231_j1434519077071_1_alg».proof.Proof.KerArrays

noncomputable section

namespace Cert.KernelIdeal.Run

open Cert.KernelIdeal Cert.KernelIdeal.Gen Cert.KernelIdeal.Arrays Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The program's first result: the input with its transformed columns overwritten by `u`. -/
def resultY (c : Dev nD) (u : FVec Ideal S4096x2048 .f32) : FVec Ideal S4096x4096 .f32 :=
  Host.scatter scatter_S4096x4096_S2048x1_S4096x2048_0_1_1_1 (fun _ b => b) (m ((c : Thread nD τ).loc main_arg0))
    (cols (m ((c : Thread nD τ).loc main_arg8))) u

/-- The lines after the region, over any contents `W` of the buffers they read: the region's first output scattered over
    the input at the normalised transformed columns, -/
theorem scatter_of (W : Valuation τ sig (Elt Ideal)) :
    StableHlo.after hostOps1 W (Proc.devRef .tc main_v29)
      = Host.scatter scatter_S4096x4096_S2048x1_S4096x2048_0_1_1_1 (fun _ b => b) (W (Proc.devRef .tc main_arg0))
          (cols (W (Proc.devRef .tc main_arg8))) (W (Proc.devRef .tc main_v21_0)) := by
  after_results
  rfl
/-- and its second output, a column, flattened to a vector. -/
theorem flatten_of (W : Valuation τ sig (Elt Ideal)) :
    StableHlo.after hostOps1 W (Proc.devRef .tc main_v22)
      = shapeCast S4096 (W (Proc.devRef .tc main_v21_1)) shapeCasts_S4096x1_S4096 := by
  after_results
  rfl

/-- After the region the first result is the scatter of the region's first output array. -/
theorem tail_v29 (c : Dev nD) :
    Pipeline.afterTail₀ cfgs (dats m) 0 (V0 m) [hostOps1] c main_v29 = resultY m c ((dats m 0 c).arrAt 8 cfg0.N) := by
  unfold Pipeline.afterTail₀
  show StableHlo.after hostOps1 _ (Proc.devRef .tc main_v29) = _
  have h8 : Pipeline.withArrays (cfgs 0).spec c (V0 m c) (fun w => (dats m 0 c).arrAt w (cfgs 0).N) (Proc.devRef .tc main_v21_0)
      = (dats m 0 c).arrAt 8 cfg0.N := Pipeline.withArrays_arr spec0 launch0.win.arr_inj c _ _ 8
  rw [scatter_of,
    Pipeline.withArrays_of_ne _ c (V0 m c) _ main_arg0 (by exact (by decide : ∀ w, Pipeline.arrRef spec0 w ≠ main_arg0)),
    Pipeline.withArrays_of_ne _ c (V0 m c) _ main_arg8 (by exact (by decide : ∀ w, Pipeline.arrRef spec0 w ≠ main_arg8)),
    h8]
  show Host.scatter _ _ (V m c main_arg0) (cols (V m c main_arg8)) _ = _
  rw [V_main_arg0, V_main_arg8]
  rfl

/-- … and the second result the region's second output array, flattened. -/
theorem tail_v22 (c : Dev nD) :
    Pipeline.afterTail₀ cfgs (dats m) 0 (V0 m) [hostOps1] c main_v22
      = shapeCast S4096 ((dats m 0 c).arrAt 9 cfg0.N) shapeCasts_S4096x1_S4096 := by
  unfold Pipeline.afterTail₀
  show StableHlo.after hostOps1 _ (Proc.devRef .tc main_v22) = _
  have h9 : Pipeline.withArrays (cfgs 0).spec c (V0 m c) (fun w => (dats m 0 c).arrAt w (cfgs 0).N) (Proc.devRef .tc main_v21_1)
      = (dats m 0 c).arrAt 9 cfg0.N := Pipeline.withArrays_arr spec0 launch0.win.arr_inj c _ _ 9
  rw [flatten_of, h9]

/-- THE KERNEL'S RUN, READ: every weakly fair execution ends with the first result at the input scattered over by the
    row-wise coupling, the second at its log-determinants, and the arguments unchanged. -/
theorem run : θ_run defs (onTc (τ := τ) (main (F := Ideal))) ⟨m, fun _ => 0, ρ⟩ fun r => ∀ c : Dev nD,
      r.2.mem ((c.tc : Thread nD τ).loc main_v29) = resultY m c (moved m c)
      ∧ r.2.mem ((c.tc : Thread nD τ).loc main_v22) = shapeCast S4096 (logdetCol m c) shapeCasts_S4096x1_S4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      ((h c).2 main_v29 (Pipeline.mem_restRefs_of main_v29 (by decide) (by decide))).trans ((tail_v29 m c).trans (by rw [final8])),
      ((h c).2 main_v22 (Pipeline.mem_restRefs_of main_v22 (by decide) (by decide))).trans ((tail_v22 m c).trans (by rw [final9])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Run

end
-- ==== Proof.RefTerm.lean ====
/-
  What the reference program computes, as whole-array functions of its nine arguments — each operation of its @main
  composed in order, over the program's own shapes and dimension records:
  the column indices normalised (a negative index counts from the end), the frozen and the transformed halves gathered
  by them, the three dense layers with the leaky rectifier between, the log-scale `2 · tanh` of the left half of the last
  layer, the transformed half `u · exp s + t`, scattered back over the input at the transformed columns, and the row
  sums of the log-scale.
-/
import proofs.«411231_j1434519077071_1_alg».proof.Proof.Gen.ReferenceIdeal

noncomputable section

namespace Cert.ReferenceIdeal.Term

open Cert.ReferenceIdeal Cert.ReferenceIdeal.Gen Idealize.ShloMosaic

variable {F : FTy → Type} [FloatOps F]

/-- The column indices as the gather and the scatter take them: `i + 4096` where `i < 0`, else `i`, one per row of a
    2048×1 index table. -/
def cols (i : IVec S2048 32) : IVec S2048x1 32 :=
  broadcastInDim S2048x1 ![0] bcast_S2048_S2048x1_0
    (select (cmpi .slt i (broadcastInDim S2048 ![] bcast_S_S2048 (constantI S_ 32 0#32)))
      (addi i (broadcastInDim S2048 ![] bcast_S_S2048 (constantI S_ 32 4096#32))) i)

/-- The columns `i` of every row of `x`. -/
def pick (x : FVec F S4096x4096 .f32) (i : IVec S2048 32) : FVec F S4096x2048 .f32 :=
  Host.gather gather_S4096x4096_S2048x1_S4096x2048_0_1_n_n_1_1_40961 x (cols i)

/-- The leaky rectifier over a whole array: `a` where `a ≥ 0`, else `slope · a`. -/
def leakyAll (a : FVec F S4096x2048 .f32) (slope : FVec F S_ .f32) : FVec F S4096x2048 .f32 :=
  select (cmpf .oge a (broadcastInDim S4096x2048 ![] bcast_S_S4096x2048 (constant S_ .f32 0x00000000#32))) a
    (mulf (broadcastInDim S4096x2048 ![] bcast_S_S4096x2048 (id slope)) a)

/-- A 2048-vector of biases laid along every row. -/
def rows2048 (b : FVec F S2048 .f32) : FVec F S4096x2048 .f32 :=
  broadcastInDim S4096x2048 ![0, 1] bcast_S1x2048_S4096x2048_0_1 (broadcastInDim S1x2048 ![1] bcast_S2048_S1x2048_1 b)

/-- A 4096-vector of biases laid along every row. -/
def rows4096 (b : FVec F S4096 .f32) : FVec F S4096x4096 .f32 :=
  broadcastInDim S4096x4096 ![0, 1] bcast_S1x4096_S4096x4096_0_1 (broadcastInDim S1x4096 ![1] bcast_S4096_S1x4096_1 b)

/-- The first hidden layer. -/
def layer1 (xm : FVec F S4096x2048 .f32) (W1 : FVec F S2048x2048 .f32) (b1 : FVec F S2048 .f32) : FVec F S4096x2048 .f32 :=
  leakyAll (addf (Host.dotGeneral dot_S4096x2048_S2048x2048_S4096x2048_1_0_0_1_n_n none xm W1) (rows2048 b1))
    (constant S_ .f32 0x3E4CCCCD#32)

/-- The last layer's 4096-wide output. -/
def outAll (xm : FVec F S4096x2048 .f32) (W1 : FVec F S2048x2048 .f32) (b1 : FVec F S2048 .f32)
    (W2 : FVec F S2048x2048 .f32) (b2 : FVec F S2048 .f32) (W3 : FVec F S2048x4096 .f32) (b3 : FVec F S4096 .f32) :
    FVec F S4096x4096 .f32 :=
  addf (Host.dotGeneral dot_S4096x2048_S2048x4096_S4096x4096_1_0_0_1_n_n none (layer1 (layer1 xm W1 b1) W2 b2) W3) (rows4096 b3)

/-- The log-scale: twice the hyperbolic tangent of the left half. -/
def scaleAll (o : FVec F S4096x4096 .f32) : FVec F S4096x2048 .f32 :=
  mulf (broadcastInDim S4096x2048 ![] bcast_S_S4096x2048 (constant S_ .f32 0x40000000#32))
    (Host.tanh (extractStridedSlice S4096x2048 ![0, 0] o slices_S4096x4096_S4096x2048_0_0))

/-- The transformed half: `u · exp s + t`, `t` the right half. -/
def movedAll (xu : FVec F S4096x2048 .f32) (o : FVec F S4096x4096 .f32) : FVec F S4096x2048 .f32 :=
  addf (mulf xu (Host.exp (scaleAll o))) (extractStridedSlice S4096x2048 ![0, 2048] o slices_S4096x4096_S4096x2048_0_2048)

/-- The first result: the input with its transformed columns overwritten. -/
def resultY (x : FVec F S4096x4096 .f32) (W1 : FVec F S2048x2048 .f32) (b1 : FVec F S2048 .f32)
    (W2 : FVec F S2048x2048 .f32) (b2 : FVec F S2048 .f32) (W3 : FVec F S2048x4096 .f32) (b3 : FVec F S4096 .f32)
    (im iu : IVec S2048 32) : FVec F S4096x4096 .f32 :=
  Host.scatter scatter_S4096x4096_S2048x1_S4096x2048_0_1_1_1 (fun _ b => b) x (cols iu)
    (movedAll (pick x iu) (outAll (pick x im) W1 b1 W2 b2 W3 b3))

/-- The second result: each row's sum of log-scales. -/
def resultLd (x : FVec F S4096x4096 .f32) (W1 : FVec F S2048x2048 .f32) (b1 : FVec F S2048 .f32)
    (W2 : FVec F S2048x2048 .f32) (b2 : FVec F S2048 .f32) (W3 : FVec F S2048x4096 .f32) (b3 : FVec F S4096 .f32)
    (im : IVec S2048 32) : FVec F S4096 .f32 :=
  Host.reduceAdd (scaleAll (outAll (pick x im) W1 b1 W2 b2 W3 b3)) (constant S_ .f32 0x00000000#32)
    reducesTo_S4096x2048_S4096_d1 h_S_

end Cert.ReferenceIdeal.Term

end
-- ==== Proof.RefRun.lean ====
/-
  The reference program's run. Its @main is a straight line of sixty-six tensor operations once its two calls of the
  leaky rectifier (each of which calls the three-way selection) are replaced by the callee's own operations over that
  call's buffers: the column indices normalised, the frozen columns gathered, three dense layers with the rectifier
  between the first two pairs, the log-scale and the shift split off the last layer, the transformed columns gathered,
  scaled and shifted, scattered back over the input, and the log-scales summed along each row.
  This module lists those operations in order, shows that @main is exactly that line, and reads the two result buffers
  after the line has run: each holds the whole-array term of the nine arguments' launch contents that composes the
  operations in the same order, and every argument buffer holds what it held at launch. Hence every weakly fair
  execution of the program terminates with those contents.
-/
import proofs.«411231_j1434519077071_1_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem
  Idealize.ShloMosaic.StableHlo

variable {F : FTy → Type} [FloatOps F]

/-- The operations of @main in the order they run, each call replaced by the callee's operations over the buffers of
    that call: the rectifier's zero, its broadcast, the comparison with it, the slope passed through, its broadcast,
    the product with the slope, and the selection between the argument and that product. -/
abbrev ops : List (HloOp τ sig (Elt F)) :=
  [ -- the frozen columns' indices, a negative one counted from the end
    nullary main_c (constantI S_ 32 0#32),
    unary main_c main_v0 (broadcastInDim S2048 ![] bcast_S_S2048 : (⟨S_, .i32⟩ : BufTy).Contents (Elt F) → (⟨S2048, .i32⟩ : BufTy).Contents (Elt F)),
    binary main_arg7 main_v0 main_v1 (cmpi .slt : (⟨S2048, .i32⟩ : BufTy).Contents (Elt F) → (⟨S2048, .i32⟩ : BufTy).Contents (Elt F) → (⟨S2048, .i1⟩ : BufTy).Contents (Elt F)),
    nullary main_c_0 (constantI S_ 32 4096#32),
    unary main_c_0 main_v2 (broadcastInDim S2048 ![] bcast_S_S2048 : (⟨S_, .i32⟩ : BufTy).Contents (Elt F) → (⟨S2048, .i32⟩ : BufTy).Contents (Elt F)),
    binary main_arg7 main_v2 main_v3 (addi : (⟨S2048, .i32⟩ : BufTy).Contents (Elt F) → (⟨S2048, .i32⟩ : BufTy).Contents (Elt F) → (⟨S2048, .i32⟩ : BufTy).Contents (Elt F)),
    ternary main_v1 main_v3 main_arg7 main_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v4 main_v5 (broadcastInDim S2048x1 ![0] bcast_S2048_S2048x1_0 : (⟨S2048, .i32⟩ : BufTy).Contents (Elt F) → (⟨S2048x1, .i32⟩ : BufTy).Contents (Elt F)),
    -- the frozen half and the first dense layer
    binary main_arg0 main_v5 main_v6 ((fun x i => Host.gather gather_S4096x4096_S2048x1_S4096x2048_0_1_n_n_1_1_40961 x i) : (⟨S4096x4096, .f32⟩ : BufTy).Contents (Elt F) → (⟨S2048x1, .i32⟩ : BufTy).Contents (Elt F) → (⟨S4096x2048, .f32⟩ : BufTy).Contents (Elt F)),
    binary main_v6 main_arg1 main_v7 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    unary main_arg2 main_v8 (broadcastInDim S1x2048 ![1] bcast_S2048_S1x2048_1 : (⟨S2048, .f32⟩ : BufTy).Contents (Elt F) → (⟨S1x2048, .f32⟩ : BufTy).Contents (Elt F)),
    unary main_v8 main_v9 (broadcastInDim S4096x2048 ![0, 1] bcast_S1x2048_S4096x2048_0_1 : (⟨S1x2048, .f32⟩ : BufTy).Contents (Elt F) → (⟨S4096x2048, .f32⟩ : BufTy).Contents (Elt F)),
    binary main_v7 main_v9 main_v10 (addf : (⟨S4096x2048, .f32⟩ : BufTy).Contents (Elt F) → (⟨S4096x2048, .f32⟩ : BufTy).Contents (Elt F) → (⟨S4096x2048, .f32⟩ : BufTy).Contents (Elt F)),
    nullary main_cst (constant S_ .f32 0x3E4CCCCD#32),
    -- the rectifier on the first layer
    TRef.nullary main_call0.cst (constant S_ .f32 0x00000000#32),
    TRef.unary main_call0.cst main_call0.v0 (broadcastInDim S4096x2048 ![] bcast_S_S4096x2048),
    TRef.binary (.of main_v10 : TRef sig ⟨S4096x2048, .f32⟩) main_call0.v0 main_call0.v1 (cmpf .oge),
    TRef.unary (.of main_cst : TRef sig ⟨S_, .f32⟩) main_call0.v2 id,
    TRef.unary main_call0.v2 main_call0.v3 (broadcastInDim S4096x2048 ![] bcast_S_S4096x2048),
    TRef.binary main_call0.v3 (.of main_v10 : TRef sig ⟨S4096x2048, .f32⟩) main_call0.v4 mulf,
    TRef.ternary main_call0.v1 (.of main_v10 : TRef sig ⟨S4096x2048, .f32⟩) main_call0.v4 main_call0.call0.v0 select,
    -- the second dense layer
    binary main_v11 main_arg3 main_v12 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)),
    unary main_arg4 main_v13 (broadcastInDim S1x2048 ![1] bcast_S2048_S1x2048_1 : (⟨S2048, .f32⟩ : BufTy).Contents (Elt F) → (⟨S1x2048, .f32⟩ : BufTy).Contents (Elt F)),
    unary main_v13 main_v14 (broadcastInDim S4096x2048 ![0, 1] bcast_S1x2048_S4096x2048_0_1 : (⟨S1x2048, .f32⟩ : BufTy).Contents (Elt F) → (⟨S4096x2048, .f32⟩ : BufTy).Contents (Elt F)),
    binary main_v12 main_v14 main_v15 (addf : (⟨S4096x2048, .f32⟩ : BufTy).Contents (Elt F) → (⟨S4096x2048, .f32⟩ : BufTy).Contents (Elt F) → (⟨S4096x2048, .f32⟩ : BufTy).Contents (Elt F)),
    nullary main_cst_1 (constant S_ .f32 0x3E4CCCCD#32),
    -- the rectifier on the second layer
    TRef.nullary main_call1.cst (constant S_ .f32 0x00000000#32),
    TRef.unary main_call1.cst main_call1.v0 (broadcastInDim S4096x2048 ![] bcast_S_S4096x2048),
    TRef.binary (.of main_v15 : TRef sig ⟨S4096x2048, .f32⟩) main_call1.v0 main_call1.v1 (cmpf .oge),
    TRef.unary (.of main_cst_1 : TRef sig ⟨S_, .f32⟩) main_call1.v2 id,
    TRef.unary main_call1.v2 main_call1.v3 (broadcastInDim S4096x2048 ![] bcast_S_S4096x2048),
    TRef.binary main_call1.v3 (.of main_v15 : TRef sig ⟨S4096x2048, .f32⟩) main_call1.v4 mulf,
    TRef.ternary main_call1.v1 (.of main_v15 : TRef sig ⟨S4096x2048, .f32⟩) main_call1.v4 main_call1.call0.v0 select,
    -- the last dense layer, its two halves, and the log-scale
    binary main_v16 main_arg5 main_v17 ((fun l r => Host.dotGeneral dot_S4096x2048_S2048x4096_S4096x4096_1_0_0_1_n_n none l r) : (⟨S4096x2048, .f32⟩ : BufTy).Contents (Elt F) → (⟨S2048x4096, .f32⟩ : BufTy).Contents (Elt F) → (⟨S4096x4096, .f32⟩ : BufTy).Contents (Elt F)),
    unary main_arg6 main_v18 (broadcastInDim S1x4096 ![1] bcast_S4096_S1x4096_1 : (⟨S4096, .f32⟩ : BufTy).Contents (Elt F) → (⟨S1x4096, .f32⟩ : BufTy).Contents (Elt F)),
    unary main_v18 main_v19 (broadcastInDim S4096x4096 ![0, 1] bcast_S1x4096_S4096x4096_0_1 : (⟨S1x4096, .f32⟩ : BufTy).Contents (Elt F) → (⟨S4096x4096, .f32⟩ : BufTy).Contents (Elt F)),
    binary main_v17 main_v19 main_v20 (addf : (⟨S4096x4096, .f32⟩ : BufTy).Contents (Elt F) → (⟨S4096x4096, .f32⟩ : BufTy).Contents (Elt F) → (⟨S4096x4096, .f32⟩ : BufTy).Contents (Elt F)),
    unary main_v20 main_v21 ((extractStridedSlice S4096x2048 ![0, 0] · slices_S4096x4096_S4096x2048_0_0) : (⟨S4096x4096, .f32⟩ : BufTy).Contents (Elt F) → (⟨S4096x2048, .f32⟩ : BufTy).Contents (Elt F)),
    unary main_v20 main_v22 ((extractStridedSlice S4096x2048 ![0, 2048] · slices_S4096x4096_S4096x2048_0_2048) : (⟨S4096x4096, .f32⟩ : BufTy).Contents (Elt F) → (⟨S4096x2048, .f32⟩ : BufTy).Contents (Elt F)),
    unary main_v21 main_v23 (Host.tanh : (⟨S4096x2048, .f32⟩ : BufTy).Contents (Elt F) → (⟨S4096x2048, .f32⟩ : BufTy).Contents (Elt F)),
    nullary main_cst_2 (constant S_ .f32 0x40000000#32),
    unary main_cst_2 main_v24 (broadcastInDim S4096x2048 ![] bcast_S_S4096x2048 : (⟨S_, .f32⟩ : BufTy).Contents (Elt F) → (⟨S4096x2048, .f32⟩ : BufTy).Contents (Elt F)),
    binary main_v24 main_v23 main_v25 (mulf : (⟨S4096x2048, .f32⟩ : BufTy).Contents (Elt F) → (⟨S4096x2048, .f32⟩ : BufTy).Contents (Elt F) → (⟨S4096x2048, .f32⟩ : BufTy).Contents (Elt F)),
    -- the transformed columns' indices and the transformed half
    nullary main_c_3 (constantI S_ 32 0#32),
    unary main_c_3 main_v26 (broadcastInDim S2048 ![] bcast_S_S2048 : (⟨S_, .i32⟩ : BufTy).Contents (Elt F) → (⟨S2048, .i32⟩ : BufTy).Contents (Elt F)),
    binary main_arg8 main_v26 main_v27 (cmpi .slt : (⟨S2048, .i32⟩ : BufTy).Contents (Elt F) → (⟨S2048, .i32⟩ : BufTy).Contents (Elt F) → (⟨S2048, .i1⟩ : BufTy).Contents (Elt F)),
    nullary main_c_4 (constantI S_ 32 4096#32),
    unary main_c_4 main_v28 (broadcastInDim S2048 ![] bcast_S_S2048 : (⟨S_, .i32⟩ : BufTy).Contents (Elt F) → (⟨S2048, .i32⟩ : BufTy).Contents (Elt F)),
    binary main_arg8 main_v28 main_v29 (addi : (⟨S2048, .i32⟩ : BufTy).Contents (Elt F) → (⟨S2048, .i32⟩ : BufTy).Contents (Elt F) → (⟨S2048, .i32⟩ : BufTy).Contents (Elt F)),
    ternary main_v27 main_v29 main_arg8 main_v30 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v30 main_v31 (broadcastInDim S2048x1 ![0] bcast_S2048_S2048x1_0 : (⟨S2048, .i32⟩ : BufTy).Contents (Elt F) → (⟨S2048x1, .i32⟩ : BufTy).Contents (Elt F)),
    binary main_arg0 main_v31 main_v32 ((fun x i => Host.gather gather_S4096x4096_S2048x1_S4096x2048_0_1_n_n_1_1_40961 x i) : (⟨S4096x4096, .f32⟩ : BufTy).Contents (Elt F) → (⟨S2048x1, .i32⟩ : BufTy).Contents (Elt F) → (⟨S4096x2048, .f32⟩ : BufTy).Contents (Elt F)),
    -- scaled and shifted
    unary main_v25 main_v33 (Host.exp : (⟨S4096x2048, .f32⟩ : BufTy).Contents (Elt F) → (⟨S4096x2048, .f32⟩ : BufTy).Contents (Elt F)),
    binary main_v32 main_v33 main_v34 (mulf : (⟨S4096x2048, .f32⟩ : BufTy).Contents (Elt F) → (⟨S4096x2048, .f32⟩ : BufTy).Contents (Elt F) → (⟨S4096x2048, .f32⟩ : BufTy).Contents (Elt F)),
    binary main_v34 main_v22 main_v35 (addf : (⟨S4096x2048, .f32⟩ : BufTy).Contents (Elt F) → (⟨S4096x2048, .f32⟩ : BufTy).Contents (Elt F) → (⟨S4096x2048, .f32⟩ : BufTy).Contents (Elt F)),
    -- the same indices once more, for the scatter
    nullary main_c_5 (constantI S_ 32 0#32),
    unary main_c_5 main_v36 (broadcastInDim S2048 ![] bcast_S_S2048 : (⟨S_, .i32⟩ : BufTy).Contents (Elt F) → (⟨S2048, .i32⟩ : BufTy).Contents (Elt F)),
    binary main_arg8 main_v36 main_v37 (cmpi .slt : (⟨S2048, .i32⟩ : BufTy).Contents (Elt F) → (⟨S2048, .i32⟩ : BufTy).Contents (Elt F) → (⟨S2048, .i1⟩ : BufTy).Contents (Elt F)),
    nullary main_c_6 (constantI S_ 32 4096#32),
    unary main_c_6 main_v38 (broadcastInDim S2048 ![] bcast_S_S2048 : (⟨S_, .i32⟩ : BufTy).Contents (Elt F) → (⟨S2048, .i32⟩ : BufTy).Contents (Elt F)),
    binary main_arg8 main_v38 main_v39 (addi : (⟨S2048, .i32⟩ : BufTy).Contents (Elt F) → (⟨S2048, .i32⟩ : BufTy).Contents (Elt F) → (⟨S2048, .i32⟩ : BufTy).Contents (Elt F)),
    ternary main_v37 main_v39 main_arg8 main_v40 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v40 main_v41 (broadcastInDim S2048x1 ![0] bcast_S2048_S2048x1_0 : (⟨S2048, .i32⟩ : BufTy).Contents (Elt F) → (⟨S2048x1, .i32⟩ : BufTy).Contents (Elt F)),
    -- the two results
    ternary main_arg0 main_v41 main_v35 main_v42 ((fun x i u => Host.scatter scatter_S4096x4096_S2048x1_S4096x2048_0_1_1_1 (fun _ b => b) x i u) : (⟨S4096x4096, .f32⟩ : BufTy).Contents (Elt F) → (⟨S2048x1, .i32⟩ : BufTy).Contents (Elt F) → (⟨S4096x2048, .f32⟩ : BufTy).Contents (Elt F) → (⟨S4096x4096, .f32⟩ : BufTy).Contents (Elt F)),
    nullary main_cst_7 (constant S_ .f32 0x00000000#32),
    binary main_v25 main_cst_7 main_v43 ((fun x v => Host.reduceAdd x v reducesTo_S4096x2048_S4096_d1 h_S_) : (⟨S4096x2048, .f32⟩ : BufTy).Contents (Elt F) → (⟨S_, .f32⟩ : BufTy).Contents (Elt F) → (⟨S4096, .f32⟩ : BufTy).Contents (Elt F)) ]

attribute [local irreducible] Host.gather Host.scatter in
set_option maxRecDepth 4096 in
/-- @main is that straight line. Sequencing in the program monad grafts the continuation onto every leaf by structural
    recursion, so a callee's body followed by the rest of @main computes to the callee's operations each continued by
    the next, its closing return absorbed: both sides are the same chain of operation steps by computation. -/
theorem main_eq (c : Dev nD) : main (F := F) c = seq ops := rfl

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the core only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., unary_bufs_sub ..,
    binary_bufs_sub .., unary_bufs_sub .., unary_bufs_sub .., unary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., ternary_bufs_sub .., nullary_bufs_sub .., binary_bufs_sub ..⟩

/-! ## What the buffers hold after the line

Over any contents `V` of the device's buffers at the start. Reading a buffer after the line unrolls the fold: the last
operation that writes the buffer gives its function applied to what its operands held just before, every other
operation leaves it alone (the buffers are told apart as references), and so on down to the arguments, which no operation
writes. The gather, the scatter, the products and the row sum are kept folded meanwhile: the equations never look inside
them. -/

attribute [local irreducible] Host.gather Host.scatter in
set_option maxRecDepth 8192 in
/-- The scatter's buffer holds the first result's term: the chain read back from the scatter is, operation by
    operation, the composition that term is defined as (the rectifier's slope passing through the callee's identity
    conversion; the transformed columns' indices computed twice by the program, once in the term). -/
theorem resultY_eq (V : Valuation τ sig (Elt F)) :
    after ops V (main_v42 : DevRef τ sig)
      = Term.resultY (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

attribute [local irreducible] Host.gather Host.scatter in
set_option maxRecDepth 8192 in
/-- The reduction's buffer holds the second result's term. -/
theorem resultLd_eq (V : Valuation τ sig (Elt F)) :
    after ops V (main_v43 : DevRef τ sig)
      = Term.resultLd (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

/-! No operation writes an argument's buffer. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

/-! ## The run -/

/-- On every device, for any float values, from any memory with zero counters: every weakly fair execution of @main
    terminates with the scatter's buffer at the first result's term of the arguments' launch contents, the reduction's
    at the second's, and the nine arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42)
          = Term.resultY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v43)
          = Term.resultLd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v42).trans (resultY_eq _), (h c main_v43).trans (resultLd_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_seq scopedRefs_eq scopedSems_eq defs main (fun _ => ops) main_eq (fun _ => ops_sub) m ρ)

end Cert.ReferenceIdeal.HandRun

end
-- ==== Proof.RefValue.lean ====
/-
  The reference program's whole-array term, read one entry at a time, at the ideal instance (every float an extended
  real).

  Each whole-array operation of the term acts entry by entry or row by row: an elementwise operation reads its operands
  at the same index, a bias vector laid along every row reads the vector at the column, a matrix product at (r, j) is the
  sum over the contracted coordinate of row r of the left factor against column j of the right, a cut of the 4096-wide
  output along its columns reads the source at the shifted column, and a sum along the columns of row r is the finite sum
  of that row's entries.  Composing these layer by layer, entry (r, j) of the transformed half is the row-wise function
  yv of row r of the frozen and of the transformed operand, and entry r of the row sums is the row-wise function ldv of
  row r of the frozen operand.  Only the identity 0 + x = x is used of the arithmetic of the extended reals.
-/
import proofs.«411231_j1434519077071_1_alg».proof.Proof.RefTerm
import proofs.«411231_j1434519077071_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The rectifier and the biases, entry by entry -/

/-- The whole-array rectifier with slope word w reads, at any index, the scalar rectifier of the entry there: the two
    scalar constants are broadcast to every index. -/
theorem leakyAll_apply (a : FVec Ideal S4096x2048 .f32) (w : BitVec 32) (i : S4096x2048.Idx) :
    Term.leakyAll a (constant S_ .f32 w) i
      = Scalar.select (FloatOps.cmpf (F := Ideal) (φ := .f32) .oge (a i) (Ideal.ofBits .f32 0x00000000#32)) (a i)
          (Ideal.ofBits .f32 w * a i) := by
  unfold Term.leakyAll
  rw [select_apply, cmpf_apply, mulf_apply,
    broadcastInDim_apply ![] bcast_S_S4096x2048 (constant (F := Ideal) S_ .f32 0x00000000#32) i ix0 (fun a => a.elim0),
    broadcastInDim_apply ![] bcast_S_S4096x2048 (id (constant (F := Ideal) S_ .f32 w)) i ix0 (fun a => a.elim0)]
  rfl

/-- A vector of 2048 biases laid along every row reads, at (r, j), the vector at j. -/
theorem rows2048_apply (b : FVec Ideal S2048 .f32) (r : Fin 4096) (j : Fin 2048) :
    Term.rows2048 b (ix2 r j) = b (ix1 j) := by
  unfold Term.rows2048
  rw [broadcastInDim_oneRow_apply]
  refine broadcastInDim_apply ![1] bcast_S2048_S1x2048_1 b (ix2 (0 : Fin 1) j) (ix1 j) ?_
  intro a
  match a with
  | ⟨0, _⟩ => rfl

/-- A vector of 4096 biases laid along every row reads, at (r, q), the vector at q. -/
theorem rows4096_apply (b : FVec Ideal S4096 .f32) (r : Fin 4096) (q : Fin 4096) :
    Term.rows4096 b (ix2 r q) = b (ix1 q) := by
  unfold Term.rows4096
  rw [broadcastInDim_oneRow_apply]
  refine broadcastInDim_apply ![1] bcast_S4096_S1x4096_1 b (ix2 (0 : Fin 1) q) (ix1 q) ?_
  intro a
  match a with
  | ⟨0, _⟩ => rfl

/-! ## The dense layers, entry by entry -/

/-- One hidden layer at (r, j): the rectifier of the dense layer's output j on row r of the layer's input. -/
theorem layer1_apply (x : FVec Ideal S4096x2048 .f32) (W : FVec Ideal S2048x2048 .f32) (b : FVec Ideal S2048 .f32)
    (r : Fin 4096) (j : Fin 2048) :
    Term.layer1 x W b (ix2 r j)
      = Cert.Coupling.leaky (Cert.Coupling.dense W (fun j => b (ix1 j)) (fun k => x (ix2 r k)) j) := by
  unfold Term.layer1
  rw [leakyAll_apply, addf_apply,
    Cert.Coupling.hostDot_apply dot_S4096x2048_S2048x2048_S4096x2048_1_0_0_1_n_n rfl, rows2048_apply]
  rfl

/-- The last layer at (r, q): output q of the three-layer network on row r of the frozen operand. -/
theorem outAll_apply (xm : FVec Ideal S4096x2048 .f32) (W1 : FVec Ideal S2048x2048 .f32) (b1 : FVec Ideal S2048 .f32)
    (W2 : FVec Ideal S2048x2048 .f32) (b2 : FVec Ideal S2048 .f32) (W3 : FVec Ideal S2048x4096 .f32) (b3 : FVec Ideal S4096 .f32)
    (r : Fin 4096) (q : Fin 4096) :
    Term.outAll xm W1 b1 W2 b2 W3 b3 (ix2 r q)
      = Cert.Coupling.outv (Cert.Coupling.Net.ofArrays W1 b1 W2 b2 W3 b3) (fun k => xm (ix2 r k)) q := by
  unfold Term.outAll
  rw [addf_apply, Cert.Coupling.hostDot_apply dot_S4096x2048_S2048x4096_S4096x4096_1_0_0_1_n_n rfl, rows4096_apply]
  have hh : ∀ c : Fin 2048, Term.layer1 (Term.layer1 xm W1 b1) W2 b2 (ix2 r c)
      = Cert.Coupling.hid2 (Cert.Coupling.Net.ofArrays W1 b1 W2 b2 W3 b3) (fun k => xm (ix2 r k)) c := by
    intro c
    rw [layer1_apply]
    simp only [layer1_apply]
    rfl
  simp only [hh]
  rfl

/-! ## The log-scale and the transformed half, entry by entry -/

/-- The log-scale at (r, j): twice the hyperbolic tangent of column j of the left half of row r. -/
theorem scaleAll_apply (o : FVec Ideal S4096x4096 .f32) (r : Fin 4096) (j : Fin 2048) :
    Term.scaleAll o (ix2 r j)
      = Ideal.ofBits .f32 0x40000000#32 * Ideal.tanh (o (ix2 r (Cert.Coupling.lo j))) := by
  unfold Term.scaleAll
  rw [mulf_apply,
    broadcastInDim_apply ![] bcast_S_S4096x2048 (constant (F := Ideal) S_ .f32 0x40000000#32) (ix2 r j) ix0
      (fun a => a.elim0), constant_apply]
  show _ * FloatOps.hostUnary .tanh
      (extractStridedSlice S4096x2048 ![0, 0] o slices_S4096x4096_S4096x2048_0_0 (ix2 r j)) = _
  rw [slice2_axis1_apply 0 o slices_S4096x4096_S4096x2048_0_0 r j (Cert.Coupling.lo j) (Nat.zero_add _).symm,
    Ideal.hostUnary_tanh_def]

/-- The transformed half at (r, j): the entry times the exponential of the log-scale, plus column j of the right half. -/
theorem movedAll_apply (xu : FVec Ideal S4096x2048 .f32) (o : FVec Ideal S4096x4096 .f32) (r : Fin 4096) (j : Fin 2048) :
    Term.movedAll xu o (ix2 r j)
      = xu (ix2 r j) * Ideal.exp (Ideal.ofBits .f32 0x40000000#32 * Ideal.tanh (o (ix2 r (Cert.Coupling.lo j))))
        + o (ix2 r (Cert.Coupling.hi j)) := by
  unfold Term.movedAll
  rw [addf_apply, mulf_apply,
    slice2_axis1_apply 2048 o slices_S4096x4096_S4096x2048_0_2048 r j (Cert.Coupling.hi j) rfl]
  show _ * FloatOps.hostUnary .exp (Term.scaleAll o (ix2 r j)) + _ = _
  rw [scaleAll_apply, Ideal.hostUnary_exp_def]

/-! ## The two results -/

/-- Entry (r, j) of the transformed half is the row-wise value on row r of the two operands. -/
theorem moved_apply (xm xu : FVec Ideal S4096x2048 .f32) (W1 : FVec Ideal S2048x2048 .f32) (b1 : FVec Ideal S2048 .f32)
    (W2 : FVec Ideal S2048x2048 .f32) (b2 : FVec Ideal S2048 .f32) (W3 : FVec Ideal S2048x4096 .f32) (b3 : FVec Ideal S4096 .f32)
    (r : Fin 4096) (j : Fin 2048) :
    Term.movedAll xu (Term.outAll xm W1 b1 W2 b2 W3 b3) (ix2 r j)
      = Cert.Coupling.yv (Cert.Coupling.Net.ofArrays W1 b1 W2 b2 W3 b3) (fun k => xm (ix2 r k)) (fun k => xu (ix2 r k)) j := by
  rw [movedAll_apply, outAll_apply, outAll_apply]
  rfl

/-- Entry r of the row sums of the log-scale is the row-wise log-determinant on row r of the frozen operand: the sum
    starts from the zero word, which is the extended real 0, and runs over the 2048 entries of row r. -/
theorem logdet_apply (xm : FVec Ideal S4096x2048 .f32) (W1 : FVec Ideal S2048x2048 .f32) (b1 : FVec Ideal S2048 .f32)
    (W2 : FVec Ideal S2048x2048 .f32) (b2 : FVec Ideal S2048 .f32) (W3 : FVec Ideal S2048x4096 .f32) (b3 : FVec Ideal S4096 .f32)
    (r : Fin 4096) :
    Host.reduceAdd (Term.scaleAll (Term.outAll xm W1 b1 W2 b2 W3 b3)) (constant S_ .f32 0x00000000#32) reducesTo_S4096x2048_S4096_d1 h_S_ (ix1 r)
      = Cert.Coupling.ldv (Cert.Coupling.Net.ofArrays W1 b1 W2 b2 W3 b3) (fun k => xm (ix2 r k)) := by
  have hR : S4096x2048.Reduces [1] S4096 := by decide
  have hlift : ∀ k : Fin 2048, hR.lift (ix1 r) k = ix2 r k := by
    intro k
    funext a
    apply Fin.ext
    match a with
    | ⟨0, _⟩ => rfl
    | ⟨1, _⟩ => rfl
  show Ideal.hostReduceAdd reducesTo_S4096x2048_S4096_d1 (Term.scaleAll (Term.outAll xm W1 b1 W2 b2 W3 b3))
      (Ideal.ofBits .f32 0x00000000#32) (ix1 r) = _
  rw [Ideal.hostReduceAdd_single reducesTo_S4096x2048_S4096_d1 hR, Ideal.ofBits_zero_f32, zero_add]
  show ∑ k : Fin 2048, Term.scaleAll (Term.outAll xm W1 b1 W2 b2 W3 b3) (hR.lift (ix1 r) k)
      = ∑ k : Fin 2048, Cert.Coupling.sv (Cert.Coupling.Net.ofArrays W1 b1 W2 b2 W3 b3) (fun k => xm (ix2 r k)) k
  refine Finset.sum_congr rfl fun k _ => ?_
  rw [hlift, scaleAll_apply, outAll_apply]
  rfl

end Cert.ReferenceIdeal.RefValue

end
-- ==== Proof.lean ====
/-
  The certificate of one affine coupling step: a three-layer network with leaky rectifiers turns the frozen half of
  each row of the input into a log-scale `s = 2 · tanh(·)` and a shift `t`; the other half `u` of the row becomes
  `u · exp s + t` and is written back over the input's transformed columns; the row's log-determinant is the sum of `s`.

  The kernel treats 64 rows per grid point, multiplies on the matrix unit in a narrow float format and sums the
  log-scales on the vector unit; the reference treats all 4096 rows at once with the host's operations.  On the extended
  reals a change of float format is the identity, a product accumulated into zero is the plain product, and a finite
  sum does not depend on how its rows are grouped: both programs compute, at row `r` and column `j`, the same function of
  row `r` of the gathered halves and of the weights (Spec.lean).  The gathers before and the scatter after are the same
  host operations on both sides, applied to equal arrays, and are never opened.  No hypothesis on the inputs is used.
-/
import proofs.«411231_j1434519077071_1_alg».proof.Defs
import proofs.«411231_j1434519077071_1_alg».proof.Proof.Gen.Kernel
import proofs.«411231_j1434519077071_1_alg».proof.Proof.Gen.Kernel.Skeleton
import proofs.«411231_j1434519077071_1_alg».proof.Proof.Gen.Kernel.Launch
import proofs.«411231_j1434519077071_1_alg».proof.Proof.Gen.Kernel.Points
import proofs.«411231_j1434519077071_1_alg».proof.Proof.Gen.Kernel.Frame
import proofs.«411231_j1434519077071_1_alg».proof.Proof.Gen.KernelIdeal
import proofs.«411231_j1434519077071_1_alg».proof.Proof.Gen.KernelIdeal.Skeleton
import proofs.«411231_j1434519077071_1_alg».proof.Proof.Gen.KernelIdeal.Launch
import proofs.«411231_j1434519077071_1_alg».proof.Proof.Gen.KernelIdeal.Points
import proofs.«411231_j1434519077071_1_alg».proof.Proof.Gen.KernelIdeal.Frame
import proofs.«411231_j1434519077071_1_alg».proof.Proof.Gen.ReferenceIdeal
import proofs.«411231_j1434519077071_1_alg».proof.Proof.Gen.Pre_finite_inputs
import proofs.«411231_j1434519077071_1_alg».proof.Proof.KerRun
import proofs.«411231_j1434519077071_1_alg».proof.Proof.RefRun
import proofs.«411231_j1434519077071_1_alg».proof.Proof.RefValue
import Idealize.ShloMosaic.Adequacy
import Idealize.ShloMosaic.Init

noncomputable section

namespace Cert.Proof

open Idealize.ShloMosaic Idealize.SL.Sem Idealize.ShloMosaic.ValueIdx

/-! ## The two programs' spellings of the shared host operations -/

/-- The two programs state the same scatter. -/
theorem scatterDims_eq :
    Cert.ReferenceIdeal.scatter_S4096x4096_S2048x1_S4096x2048_0_1_1_1 = Cert.KernelIdeal.scatter_S4096x4096_S2048x1_S4096x2048_0_1_1_1 := rfl
/-- … and the same gather. -/
theorem gatherDims_eq :
    Cert.ReferenceIdeal.gather_S4096x4096_S2048x1_S4096x2048_0_1_n_n_1_1_40961 = Cert.KernelIdeal.gather_S4096x4096_S2048x1_S4096x2048_0_1_n_n_1_1_40961 := rfl
/-- They normalise a vector of column indices by the same operations. -/
theorem cols_eq (i : IVec Cert.KernelIdeal.S2048 32) : Cert.ReferenceIdeal.Term.cols i = Cert.KernelIdeal.Arrays.cols i := rfl
/-- So they gather the same columns. -/
theorem pick_eq (x : FVec Ideal Cert.KernelIdeal.S4096x4096 .f32) (i : IVec Cert.KernelIdeal.S2048 32) :
    Cert.ReferenceIdeal.Term.pick x i = Cert.KernelIdeal.Arrays.pick x i := by
  unfold Cert.ReferenceIdeal.Term.pick Cert.KernelIdeal.Arrays.pick
  rw [gatherDims_eq, cols_eq]

section Bridge
open Cert.KernelIdeal

variable (m : (ℓ : Loc nD τ sig) → Buf (Elt Ideal) ℓ)

/-- The reference's transformed half is the kernel's, entry by entry: both are the row-wise coupling. -/
theorem moved_eq (c : Dev nD) :
    Cert.ReferenceIdeal.Term.movedAll (F := Ideal)
        (Cert.ReferenceIdeal.Term.pick (m ((c.tc : Thread nD τ).loc main_arg0)) (m ((c.tc : Thread nD τ).loc main_arg8)))
        (Cert.ReferenceIdeal.Term.outAll
          (Cert.ReferenceIdeal.Term.pick (m ((c.tc : Thread nD τ).loc main_arg0)) (m ((c.tc : Thread nD τ).loc main_arg7)))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)))
      = Arrays.moved m c := by
  funext i
  obtain ⟨r, j, rfl⟩ : ∃ (r : Fin 4096) (j : Fin 2048), i = ix2 r j := ⟨i 0, i 1, eq_ix2 i⟩
  rw [Cert.ReferenceIdeal.RefValue.moved_apply, pick_eq, pick_eq]
  rfl

/-- The reference's log-determinants are the kernel's column, flattened. -/
theorem logdet_eq (c : Dev nD) :
    Cert.ReferenceIdeal.Term.resultLd (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      = shapeCast S4096 (Arrays.logdetCol m c) Cert.KernelIdeal.Gen.shapeCasts_S4096x1_S4096 := by
  funext i
  obtain ⟨r, rfl⟩ : ∃ r : Fin 4096, i = ix1 r := ⟨i 0, eq_ix1 i⟩
  unfold Cert.ReferenceIdeal.Term.resultLd
  rw [Cert.ReferenceIdeal.RefValue.logdet_apply, pick_eq]
  refine Eq.symm ((shapeCast_apply (Arrays.logdetCol m c) Cert.KernelIdeal.Gen.shapeCasts_S4096x1_S4096 (ix1 r) (ix2 r (0 : Fin 1)) ?_).trans rfl)
  rw [Shape.rowMajor_val_two, Shape.rowMajor_val_one]
  show r.val * 1 + 0 = r.val
  omega

/-- The reference's first result is the kernel's. -/
theorem resultY_eq (c : Dev nD) :
    Cert.ReferenceIdeal.Term.resultY (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8))
      = Run.resultY m c (Arrays.moved m c) := by
  unfold Cert.ReferenceIdeal.Term.resultY Run.resultY
  rw [moved_eq, scatterDims_eq, cols_eq]

end Bridge

/-! ## The claims -/

theorem frame_k : Cert.frame_Kernel := fun m ρ _ => Cert.Kernel.Gen.frame m ρ
theorem frame_ki : Cert.frame_KernelIdeal := fun m ρ _ => Cert.KernelIdeal.Gen.frame m ρ
/-- The reference's run, its results dropped. -/
theorem frame_ri : Cert.frame_ReferenceIdeal := fun m ρ _ =>
  (θ_run Cert.ReferenceIdeal.defs _ _).mono (fun _ h c => (h c).2.2) (Cert.ReferenceIdeal.HandRun.run (F := Ideal) m ρ)

/-- Both runs end with the input scattered over by the row-wise coupling, and with its row sums of log-scales. -/
theorem algebraic : Cert.algebraic_KernelIdeal_ReferenceIdeal := by
  intro m ρ m' ρ' _ hagree
  refine ⟨fun c => Cert.KernelIdeal.Run.resultY m c (Cert.KernelIdeal.Arrays.moved m c),
    fun c => shapeCast Cert.KernelIdeal.S4096 (Cert.KernelIdeal.Arrays.logdetCol m c) Cert.KernelIdeal.Gen.shapeCasts_S4096x1_S4096,
    Cert.KernelIdeal.Run.run m ρ, ?_⟩
  refine (θ_run Cert.ReferenceIdeal.defs _ _).mono (fun _ h c => ?_) (Cert.ReferenceIdeal.HandRun.run (F := Ideal) m' ρ')
  obtain ⟨hy, hl, hargs⟩ := h c
  obtain ⟨a0, a1, a2, a3, a4, a5, a6, a7, a8⟩ := hagree c
  refine ⟨hy.trans ?_, hl.trans ?_, hargs⟩
  · rw [a0, a1, a2, a3, a4, a5, a6, a7, a8]
    exact resultY_eq m c
  · rw [a0, a1, a2, a3, a4, a5, a6, a7]
    exact logdet_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
